-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x1 .f32) (main_arg2 : FVec F S1x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S512x4096 : Shape := ⟨2, ![512, 4096]⟩
abbrev S1x512 : Shape := ⟨2, ![1, 512]⟩
abbrev S512x512 : Shape := ⟨2, ![512, 512]⟩
abbrev S4096x512 : Shape := ⟨2, ![4096, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S1x4096, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S1x4096, .f32⟩
  | .hbm, ⟨7, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x1, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1x4096_S4096x1_1_0 : S1x4096.Transposes [1, 0] S4096x1
  transposes_S4096x1_S1x4096_1_0 : S4096x1.Transposes [1, 0] S1x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x4096.size a
  hwx0_4 : ∀ i : grid0.Coords, EltTy.bits .f32 = 32 ∨ (Rect.block (s := S8192x4096) S512x512.size (cc0_transform_4 i) (hinb0_4 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x1 : Shape := ⟨2, ![4096, 1]⟩
abbrev S1x4096 : Shape := ⟨2, ![1, 4096]⟩
abbrev S4096 : Shape := ⟨1, ![4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1, .f32⟩
  | .hbm, ⟨2, _⟩ => ⟨S1x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x1_S1x4096_S4096x4096_1_0_0_1_n_n_wf : DotDims.WF S4096x1 S1x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KernelPayload.lean ====
/-
  One block of the kernel's result, entry by entry. The body forms the weight tile `W[k, q] = vcol[k, 0] · urow[0, q]`
  by laying the column across the tile's columns and the row down its rows, contracts the block of `x` against it
  starting from zero, and adds the bias row laid down the rows. The narrowing to a shorter float format is the identity
  on the extended reals, so entry `(p, q)` is `Σ_k x[p, k] · (vcol[k, 0] · urow[0, q]) + bias[0, q]`.
-/
import proofs.«105777_j5471788335890_1_alg».proof.Proof.Gen.KernelIdeal.Skeleton
import proofs.«105777_j5471788335890_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.RankOne.Kernel

open Cert.KernelIdeal Cert.KernelIdeal.Gen
open Idealize.ShloMosaic Idealize.ShloMosaic.ValueIdx

/-! ## The contraction's operand indices: row `p` of the left operand, column `q` of the right, at `k` -/

theorem lhs_tile_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_tile_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_tile_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_tile_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-! ## The block's entry -/

/-- Entry `(p, q)` of what the body stores, from the four loaded blocks. -/
theorem payload_apply (x0 : Vec Ideal S512x4096 .f32) (x1 : Vec Ideal S4096x1 .f32) (x2 : Vec Ideal S1x512 .f32)
    (x3 : Vec Ideal S1x512 .f32) (p q : Fin 512) :
    k0_pay1 (F := Ideal) x0 x1 x2 x3 (ix2 p q)
      = (∑ k : Fin 4096, x0 (ix2 p k) * (x1 (ix2 k (0 : Fin 1)) * x2 (ix2 (0 : Fin 1) q))) + x3 (ix2 (0 : Fin 1) q) := by
  unfold k0_pay1
  rw [addf_apply]
  simp only [matmul, shapeCast_self]
  rw [Ideal.matmul_constant_zero_apply, broadcastTo_1b_ab_apply,
    ← Equiv.sum_comp (ValueIdx.contrEquiv1 dot_S512x4096_S4096x512_S512x512_1_0_0_1_n_n 4096 rfl rfl).symm]
  refine congrArg (· + x3 (ix2 (0 : Fin 1) q)) (Finset.sum_congr rfl fun k _ => ?_)
  have hk := ValueIdx.contrEquiv1_symm_val dot_S512x4096_S4096x512_S512x512_1_0_0_1_n_n 4096 rfl rfl k
  have el : dot_S512x4096_S4096x512_S512x512_1_0_0_1_n_n.lhsIdx (ix2 p q) ((ValueIdx.contrEquiv1 dot_S512x4096_S4096x512_S512x512_1_0_0_1_n_n 4096 rfl rfl).symm k) = ix2 p k := funext fun a => Fin.ext (by
    match a with
    | ⟨0, _⟩ => exact lhs_tile_0 _ _
    | ⟨1, _⟩ => exact (lhs_tile_1 _ _).trans hk)
  have er : dot_S512x4096_S4096x512_S512x512_1_0_0_1_n_n.rhsIdx (ix2 p q) ((ValueIdx.contrEquiv1 dot_S512x4096_S4096x512_S512x512_1_0_0_1_n_n 4096 rfl rfl).symm k) = ix2 k q := funext fun a => Fin.ext (by
    match a with
    | ⟨0, _⟩ => exact (rhs_tile_0 _ _).trans hk
    | ⟨1, _⟩ => exact rhs_tile_1 _ _)
  rw [el, er, truncf_apply, mulf_apply, Cert.LibColumn.broadcastTo_a1_ab_apply, broadcastTo_1b_ab_apply, truncf_apply, truncf_apply]

end Cert.RankOne.Kernel

end
-- ==== Proof.KernelEntry.lean ====
/-
  What the region finds in the three arrays the host prepares before it: `v` transposed into a column, `u` transposed
  into a row, and the bias vector recast as a one-row matrix. Each is read at an entry: the column at `(k, 0)` is
  `v[0, k]`, the row at `(0, n)` is `u[n, 0]`, the bias row at `(0, n)` is `bias[n]`.
-/
import proofs.«105777_j5471788335890_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.RankOne.Kernel

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The column the region stages is `v` transposed. -/
theorem entry_column (c : Dev nD) :
    (V m c main_v0 : S4096x1.Idx → EReal)
      = transpose S4096x1 [1, 0] (m ((c : Thread nD τ).loc main_arg2)) transposes_S1x4096_S4096x1_1_0 := by
  dsimp only [Gen.V, Gen.hostOps0]; after_results

/-- The row the region stages is `u` transposed. -/
theorem entry_row (c : Dev nD) :
    (V m c main_v1 : S1x4096.Idx → EReal)
      = transpose S1x4096 [1, 0] (m ((c : Thread nD τ).loc main_arg1)) transposes_S4096x1_S1x4096_1_0 := by
  dsimp only [Gen.V, Gen.hostOps0]; after_results

/-- The bias row the region stages is the bias vector recast to one row. -/
theorem entry_bias (c : Dev nD) :
    (V m c main_v2 : S1x4096.Idx → EReal)
      = shapeCast S1x4096 (m ((c : Thread nD τ).loc main_arg3)) shapeCasts_S4096_S1x4096 := by
  dsimp only [Gen.V, Gen.hostOps0]; after_results; rfl

/-- The staged column at `(k, 0)` is `v[0, k]`. -/
theorem entry_column_apply (c : Dev nD) (k : Fin 4096) :
    V m c main_v0 (ix2 k (0 : Fin 1)) = m ((c : Thread nD τ).loc main_arg2) (ix2 (0 : Fin 1) k) := by
  rw [entry_column]
  exact transpose_ix2_apply _ _ k (0 : Fin 1)

/-- The staged row at `(0, n)` is `u[n, 0]`. -/
theorem entry_row_apply (c : Dev nD) (n : Fin 4096) :
    V m c main_v1 (ix2 (0 : Fin 1) n) = m ((c : Thread nD τ).loc main_arg1) (ix2 n (0 : Fin 1)) := by
  rw [entry_row]
  exact transpose_ix2_apply _ _ (0 : Fin 1) n

/-- The staged bias row at `(0, n)` is `bias[n]`. -/
theorem entry_bias_apply (c : Dev nD) (n : Fin 4096) :
    V m c main_v2 (ix2 (0 : Fin 1) n) = m ((c : Thread nD τ).loc main_arg3) (ix1 n) := by
  rw [entry_bias]
  exact shapeCast_a_1a_apply _ _ (0 : Fin 1) n

end Cert.RankOne.Kernel

end
-- ==== Proof.Spec.lean ====
/-
  The rank-one linear layer as ONE function of its four arguments. With the weight the outer product
  `W[n, k] = u[n] · v[k]`, the layer sends a row `x[r, ·]` to `out[r, n] = Σ_k x[r, k] · W[n, k] + bias[n]`.
  The two programs differ only in the order of the two factors of `W`: one multiplies `v[k] · u[n]` entry by entry, the
  other takes the matrix product of the column `u` with the row `v`, whose one-term contraction is `u[n] · v[k]`.
  Multiplication of extended reals is commutative, infinities included, so no finiteness is needed anywhere.
  This module imports neither program: the layer is stated over plain arrays of extended reals.
-/
import Idealize.ShloMosaic.PureOps.Ideal
import Idealize.ShloMosaic.Lib.ValueIdx

noncomputable section

namespace Cert.RankOne

open Idealize.ShloMosaic Idealize.ShloMosaic.ValueIdx

/-- The layer's result at `(r, n)`: the row `x[r, ·]` against the weight row `k ↦ v[0, k] · u[n, 0]`, plus `bias[n]`. -/
def layer (x : (⟨2, ![8192, 4096]⟩ : Shape).Idx → EReal) (u : (⟨2, ![4096, 1]⟩ : Shape).Idx → EReal)
    (v : (⟨2, ![1, 4096]⟩ : Shape).Idx → EReal) (bias : (⟨1, ![4096]⟩ : Shape).Idx → EReal) :
    (⟨2, ![8192, 4096]⟩ : Shape).Idx → EReal :=
  fun i => (∑ k : Fin 4096, x (ix2 (i 0) k) * (v (ix2 (0 : Fin 1) k) * u (ix2 (i 1) (0 : Fin 1)))) + bias (ix1 (i 1))

/-- The layer at coordinates. -/
theorem layer_ix2 (x : (⟨2, ![8192, 4096]⟩ : Shape).Idx → EReal) (u : (⟨2, ![4096, 1]⟩ : Shape).Idx → EReal)
    (v : (⟨2, ![1, 4096]⟩ : Shape).Idx → EReal) (bias : (⟨1, ![4096]⟩ : Shape).Idx → EReal) (r : Fin 8192) (n : Fin 4096) :
    layer x u v bias (ix2 r n)
      = (∑ k : Fin 4096, x (ix2 r k) * (v (ix2 (0 : Fin 1) k) * u (ix2 n (0 : Fin 1)))) + bias (ix1 n) := rfl

/-- The same sum with the weight's factors in the other order, as the matrix product `u · v` has them. -/
theorem sum_weight_comm (X V : Fin 4096 → EReal) (a : EReal) :
    (∑ k : Fin 4096, X k * (a * V k)) = ∑ k : Fin 4096, X k * (V k * a) :=
  Finset.sum_congr rfl fun k _ => by rw [mul_comm a (V k)]

end Cert.RankOne

end
-- ==== Proof.KernelArray.lean ====
/-
  From blocks to the whole array. The grid has 16 × 8 points; point `(a, b)` works on rows `512·a … 512·a + 511` of
  `x` (all 4096 columns), on the whole column `v`, on entries `512·b … 512·b + 511` of the row `u` and of the bias row,
  and writes the `512 × 512` block `(a, b)` of the result. Entry `(p, q)` of that block is entry
  `(512·a + p, 512·b + q)` of the layer; the 128 blocks tile the `8192 × 4096` result, so after the run the result
  array is the layer of the four arguments.
-/
import proofs.«105777_j5471788335890_1_alg».proof.Proof.Gen.KernelIdeal.Value
import proofs.«105777_j5471788335890_1_alg».proof.Proof.KernelPayload
import proofs.«105777_j5471788335890_1_alg».proof.Proof.KernelEntry
import proofs.«105777_j5471788335890_1_alg».proof.Proof.Spec

noncomputable section

namespace Cert.RankOne.Kernel

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer of the four arguments as core `c` holds them at launch. -/
abbrev result (c : Dev nD) : S8192x4096.Idx → EReal :=
  Cert.RankOne.layer (m ((c : Thread nD τ).loc main_arg0)) (m ((c : Thread nD τ).loc main_arg1))
    (m ((c : Thread nD τ).loc main_arg2)) (m ((c : Thread nD τ).loc main_arg3))

/-! ## The four input blocks at a point, at their literal types -/

abbrev xBlock (c : Dev nD) (t : Fin cfg0.N) : Vec Ideal S512x4096 .f32 := iblk m c 0 t
abbrev columnBlock (c : Dev nD) (t : Fin cfg0.N) : Vec Ideal S4096x1 .f32 := iblk m c 1 t
abbrev rowBlock (c : Dev nD) (t : Fin cfg0.N) : Vec Ideal S1x512 .f32 := iblk m c 2 t
abbrev biasBlock (c : Dev nD) (t : Fin cfg0.N) : Vec Ideal S1x512 .f32 := iblk m c 3 t

/-! ## Which block each window is on, decided over the 128 points -/

/-- `x` moves with the result's block row and spans every column; the column `v` never moves; the row `u` and the
    bias row move with the result's block column; the result's block indices stay below 16 and 8. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 7 :=
  (by decide +kernel : ∀ t : Fin grid0.N, _)

/-- Every block of the result is some point's. -/
theorem block_onto : ∀ (a : Fin 16) (b : Fin 8), ∃ t : Fin cfg0.N, win0_4.index t = ![a.val, b.val] :=
  (by decide +kernel : ∀ (a : Fin 16) (b : Fin 8), ∃ t : Fin grid0.N, win0_4.index t = ![a.val, b.val])

/-! ## Each input block, read where the result's block says -/

/-- Row `p` of the block of `x` is row `r = 512·a + p` of `x`. -/
theorem xBlock_apply (c : Dev nD) (t : Fin cfg0.N) (p : Fin 512) (k : Fin 4096) (r : Fin 8192)
    (hr : r.val = win0_4.index t (0 : Fin 2) * 512 + p.val) :
    xBlock m c t (ix2 p k) = m ((c : Thread nD τ).loc main_arg0) (ix2 r k) := by
  obtain ⟨e00, e01, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The staged column at `(k, 0)` is `v[0, k]`. -/
theorem columnBlock_apply (c : Dev nD) (t : Fin cfg0.N) (k : Fin 4096) :
    columnBlock m c t (ix2 k (0 : Fin 1)) = m ((c : Thread nD τ).loc main_arg2) (ix2 (0 : Fin 1) k) := by
  obtain ⟨-, -, e10, e11, -⟩ := block_indices t
  show V m c main_v0 (((cfg0.win 1).blk t).view.emb (ix2 k (0 : Fin 1))) = _
  refine Eq.trans (congrArg _ (funext fun a => Fin.ext ?_)) (entry_column_apply m c k)
  match a with
  | ⟨0, _⟩ => show win0_1.index t (0 : Fin 2) * 4096 + 1 * k.val = k.val; omega
  | ⟨1, _⟩ => show win0_1.index t (1 : Fin 2) * 1 + 1 * 0 = 0; omega

/-- Entry `q` of the block of the row is `u[n, 0]` with `n = 512·b + q`. -/
theorem rowBlock_apply (c : Dev nD) (t : Fin cfg0.N) (q : Fin 512) (n : Fin 4096)
    (hn : n.val = win0_4.index t (1 : Fin 2) * 512 + q.val) :
    rowBlock m c t (ix2 (0 : Fin 1) q) = m ((c : Thread nD τ).loc main_arg1) (ix2 n (0 : Fin 1)) := by
  obtain ⟨-, -, -, -, e20, e21, -⟩ := block_indices t
  show V m c main_v1 (((cfg0.win 2).blk t).view.emb (ix2 (0 : Fin 1) q)) = _
  refine Eq.trans (congrArg _ (funext fun a => Fin.ext ?_)) (entry_row_apply m c n)
  match a with
  | ⟨0, _⟩ => show win0_2.index t (0 : Fin 2) * 1 + 1 * 0 = 0; omega
  | ⟨1, _⟩ => show win0_2.index t (1 : Fin 2) * 512 + 1 * q.val = n.val; omega

/-- Entry `q` of the block of the bias row is `bias[n]` with `n = 512·b + q`. -/
theorem biasBlock_apply (c : Dev nD) (t : Fin cfg0.N) (q : Fin 512) (n : Fin 4096)
    (hn : n.val = win0_4.index t (1 : Fin 2) * 512 + q.val) :
    biasBlock m c t (ix2 (0 : Fin 1) q) = m ((c : Thread nD τ).loc main_arg3) (ix1 n) := by
  obtain ⟨-, -, -, -, -, -, e30, e31, -⟩ := block_indices t
  show V m c main_v2 (((cfg0.win 3).blk t).view.emb (ix2 (0 : Fin 1) q)) = _
  refine Eq.trans (congrArg _ (funext fun a => Fin.ext ?_)) (entry_bias_apply m c n)
  match a with
  | ⟨0, _⟩ => show win0_3.index t (0 : Fin 2) * 1 + 1 * 0 = 0; omega
  | ⟨1, _⟩ => show win0_3.index t (1 : Fin 2) * 512 + 1 * q.val = n.val; omega

/-! ## What a point writes back is its block of the layer -/

/-- Entry `(p, q)` of the block computed at `t` is the layer at the array index `i` that block entry lands on. -/
theorem block_entry (c : Dev nD) (t : Fin cfg0.N) (p q : Fin 512) (i : S8192x4096.Idx)
    (h0 : (i 0).val = win0_4.index t (0 : Fin 2) * 512 + p.val) (h1 : (i 1).val = win0_4.index t (1 : Fin 2) * 512 + q.val) :
    (∑ k : Fin 4096, xBlock m c t (ix2 p k) * (columnBlock m c t (ix2 k (0 : Fin 1)) * rowBlock m c t (ix2 (0 : Fin 1) q)))
        + biasBlock m c t (ix2 (0 : Fin 1) q)
      = result m c i := by
  obtain ⟨r, n, rfl⟩ : ∃ (r : Fin 8192) (n : Fin 4096), i = ix2 r n := ⟨i 0, i 1, eq_ix2 i⟩
  have hr : r.val = win0_4.index t (0 : Fin 2) * 512 + p.val := h0
  have hn : n.val = win0_4.index t (1 : Fin 2) * 512 + q.val := h1
  show _ = Cert.RankOne.layer _ _ _ _ (ix2 r n)
  rw [Cert.RankOne.layer_ix2, biasBlock_apply m c t q n hn, rowBlock_apply m c t q n hn]
  refine congrArg (· + _) (Finset.sum_congr rfl fun k _ => ?_)
  rw [xBlock_apply m c t p k r hr, columnBlock_apply m c t k]

/-- What point `t` writes back is block `t` of the layer. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin]
  simp only [View.ld_unit_zero (S := S512x4096) origin, View.ld_unit_zero (S := S4096x1) origin, View.ld_unit_zero (S := S1x512) origin]
  funext j
  obtain ⟨p, q, rfl⟩ : ∃ (p q : Fin 512), j = ix2 p q := ⟨j 0, j 1, eq_ix2 (n0 := 512) (n1 := 512) j⟩
  show k0_pay1 (F := Ideal) (xBlock m c t) (columnBlock m c t) (rowBlock m c t) (biasBlock m c t) (ix2 p q)
    = result m c (((cfg0.win 4).blk t).view.emb (ix2 p q))
  refine (payload_apply (xBlock m c t) (columnBlock m c t) (rowBlock m c t) (biasBlock m c t) p q).trans ?_
  exact block_entry m c t p q _
    (by show win0_4.index t (0 : Fin 2) * 512 + 1 * p.val = _; omega)
    (by show win0_4.index t (1 : Fin 2) * 512 + 1 * q.val = _; omega)

/-! ## The blocks tile the result -/

/-- An index is in point `t`'s block iff each coordinate is in the block's range on its axis. -/
theorem mem_block (t : Fin cfg0.N) (i : S8192x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v3).slice (win0_4.rect t)).set ↔ _
  rw [View.set_slice_whole, Rect.mem_set_unit]
  exact Iff.rfl

/-- Index `(r, n)` lies in the block `(r / 512, n / 512)`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The result array after the run is the layer of the arguments. -/
theorem final (c : Dev nD) : (dats m 0 c).arrAt 4 cfg0.N = result m c :=
  (dats m 0 c).arrAt_eq_of_cover 4 (result m c) (fun t _ => flushed_eq m c t) covered

/-! ## The run -/

/-- Every weakly fair execution of the idealized kernel terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.RankOne.Kernel

end
-- ==== Proof.RefValue.lean ====
/-
  The reference program's result IS the rank-one layer. Read one operation at a time: the product of the column `u`
  with the row `v` contracts an axis of extent one, so its entry `(n, k)` is the single term `u[n, 0] · v[0, k]`; the
  transpose swaps the two coordinates; the second product sums `x[r, k]` against that entry over `k`; the bias is laid
  along the rows twice and added. The only law used is that the product of two extended reals commutes.
-/
import proofs.«105777_j5471788335890_1_alg».proof.Proof.Gen.ReferenceIdeal.Read
import proofs.«105777_j5471788335890_1_alg».proof.Proof.Spec

noncomputable section

namespace Cert.RankOne.Reference

open Cert.ReferenceIdeal Cert.ReferenceIdeal.Gen Cert.ReferenceIdeal.Read
open Idealize.ShloMosaic Idealize.ShloMosaic.ValueIdx

/-- The last stage of the reference, as a function of the four arguments, is the layer. -/
theorem result_eq_layer (x : (⟨S8192x4096, .f32⟩ : BufTy).Contents (Elt Ideal)) (u : (⟨S4096x1, .f32⟩ : BufTy).Contents (Elt Ideal))
    (v : (⟨S1x4096, .f32⟩ : BufTy).Contents (Elt Ideal)) (b : (⟨S4096, .f32⟩ : BufTy).Contents (Elt Ideal)) :
    val_main_v5 (F := Ideal) x u v b = Cert.RankOne.layer x u v b := by
  funext i
  obtain ⟨r, n, rfl⟩ : ∃ (r : Fin 8192) (n : Fin 4096), i = ix2 r n := ⟨i 0, i 1, eq_ix2 i⟩
  -- the bias entry: both broadcasts keep the column coordinate
  have eb : idx_main_v3 (idx_main_v4 (ix2 r n)) = ix1 n :=
    funext fun a => Fin.ext (by match a with | ⟨0, _⟩ => rfl)
  -- the row of `x`
  have ex : ∀ k : Fin 4096, lidx_main_v2 (ix2 r n) k = ix2 r k := fun k =>
    funext fun a => Fin.ext (by match a with | ⟨0, _⟩ => rfl | ⟨1, _⟩ => rfl)
  -- the weight entry `(n, k)`, reached through the transpose, reads `u` at `(n, 0)` and `v` at `(0, k)`
  have eu : ∀ k : Fin 4096, lidx_main_v0 (idx_main_v1 (ridx_main_v2 (ix2 r n) k)) (0 : Fin 1) = ix2 n (0 : Fin 1) := fun k =>
    funext fun a => Fin.ext (by match a with | ⟨0, _⟩ => rfl | ⟨1, _⟩ => rfl)
  have ev : ∀ k : Fin 4096, ridx_main_v0 (idx_main_v1 (ridx_main_v2 (ix2 r n) k)) (0 : Fin 1) = ix2 (0 : Fin 1) k := fun k =>
    funext fun a => Fin.ext (by match a with | ⟨0, _⟩ => rfl | ⟨1, _⟩ => rfl)
  rw [val_main_v5_apply, val_main_v2_apply, val_main_v4_apply, val_main_v3_apply, eb, Cert.RankOne.layer_ix2]
  show (∑ k : Fin 4096, x (lidx_main_v2 (ix2 r n) k) * val_main_v1 (F := Ideal) u v (ridx_main_v2 (ix2 r n) k)) + b (ix1 n) = _
  refine congrArg (· + b (ix1 n)) (Finset.sum_congr rfl fun k _ => ?_)
  rw [ex k, val_main_v1_apply, val_main_v0_apply, Fin.sum_univ_one, eu k, ev k, mul_comm (u _) (v _)]

end Cert.RankOne.Reference

end
-- ==== Proof.lean ====
/-
  A linear layer whose weight is the rank-one matrix `W[n, k] = u[n] · v[k]`:
  `out[r, n] = Σ_k x[r, k] · W[n, k] + bias[n]` for `x : [8192, 4096]`, `u : [4096, 1]`, `v : [1, 4096]`, `bias : [4096]`.

  The kernel never forms `W`. On a `16 × 8` grid it takes 512 rows of `x`, the whole column `vᵀ` and 512 entries of the
  row `uᵀ`, builds the tile `vᵀ[k] · uᵀ[q]` by two broadcasts and an entrywise product, contracts the rows of `x` against it
  from a zero accumulator, and adds the bias row. The reference forms `W` as the matrix product of the column `u` with
  the row `v` (a contraction over one term), transposes it, multiplies `x` by it and adds the bias.

  Over the extended reals both are the same function (`Cert.RankOne.layer`): narrowing a float is the identity there, a
  contraction from zero is the plain sum, a one-term contraction is its term, and the two orders of the weight's factors
  agree because the product commutes, infinities included. So the precondition is never opened. The idealized
  kernel is the kernel's own text read over the extended reals, no operation rewritten, so the statement relating the two is `True`.

  The three termination-and-frame statements come from the frame of each kernel program and from the reference's run.
-/
import proofs.«105777_j5471788335890_1_alg».proof.Defs
import proofs.«105777_j5471788335890_1_alg».proof.Proof.Gen.Kernel
import proofs.«105777_j5471788335890_1_alg».proof.Proof.Gen.Kernel.Skeleton
import proofs.«105777_j5471788335890_1_alg».proof.Proof.Gen.Kernel.Launch
import proofs.«105777_j5471788335890_1_alg».proof.Proof.Gen.Kernel.Points
import proofs.«105777_j5471788335890_1_alg».proof.Proof.Gen.Kernel.Frame
import proofs.«105777_j5471788335890_1_alg».proof.Proof.Gen.KernelIdeal
import proofs.«105777_j5471788335890_1_alg».proof.Proof.Gen.KernelIdeal.Skeleton
import proofs.«105777_j5471788335890_1_alg».proof.Proof.Gen.KernelIdeal.Launch
import proofs.«105777_j5471788335890_1_alg».proof.Proof.Gen.KernelIdeal.Points
import proofs.«105777_j5471788335890_1_alg».proof.Proof.Gen.KernelIdeal.Frame
import proofs.«105777_j5471788335890_1_alg».proof.Proof.Gen.ReferenceIdeal
import proofs.«105777_j5471788335890_1_alg».proof.Proof.Gen.KernelIdeal.Value
import proofs.«105777_j5471788335890_1_alg».proof.Proof.Gen.ReferenceIdeal.Run
import proofs.«105777_j5471788335890_1_alg».proof.Proof.Gen.ReferenceIdeal.Read
import proofs.«105777_j5471788335890_1_alg».proof.Proof.Gen.Pre_finite_inputs
import proofs.«105777_j5471788335890_1_alg».proof.Proof.KernelArray
import proofs.«105777_j5471788335890_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments: the kernel's
    result array block by block, the reference's as the last of its six operations. -/
theorem algebraic : Cert.algebraic_KernelIdeal_ReferenceIdeal := by
  intro m ρ m' ρ' _ hagree
  refine ⟨fun c => Cert.RankOne.Kernel.result m c, Cert.RankOne.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RankOne.Reference.result_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
